-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x128x128 : Shape := ⟨3, ![4096, 128, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x128x128 : S_.BroadcastsInDim S4096x128x128 (![] : Fin 0 → Fin S4096x128x128.rank)
  reducesTo_S4096x128x128_S_d0_1_2 : S4096x128x128.ReducesTo [0, 1, 2] S_

variable [Facts]

def fn {F : FTy → Type} [FloatOps F] (main_arg0 : FVec F S4096x128 .f32) (main_arg1 : FVec F S4096x128x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128x128 .f32 := Host.absf main_arg1
  let main_cst_0 : FVec F S_ .f32 := constant S_ .f32 0x7F800000#32
  let main_v5 : FVec F S4096x128x128 .f32 := broadcastInDim S4096x128x128 ![] bcast_S_S4096x128x128 main_cst_0
  let main_v6 : IVec S4096x128x128 1 := cmpf .olt main_v4 main_v5
  let main_c_1 : IVec S_ 1 := constantI S_ 1 1#1
  let main_v7 : IVec S_ 1 := (fun x v => Host.reduce IntOp.andi x v reducesTo_S4096x128x128_S_d0_1_2 h_S_) main_v6 main_c_1
  let main_v8 : IVec S_ 1 := andi main_v3 main_v7
  main_v8
-- ==== Kernel.lean ====
abbrev S4096x128 : Shape := ⟨2, ![4096, 128]⟩
abbrev S4096x128x128 : Shape := ⟨3, ![4096, 128, 128]⟩
abbrev S64x128 : Shape := ⟨2, ![64, 128]⟩
abbrev S64x128x128 : Shape := ⟨3, ![64, 128, 128]⟩
abbrev S64 : Shape := ⟨1, ![64]⟩
abbrev S64x1 : Shape := ⟨2, ![64, 1]⟩
abbrev S128x128 : Shape := ⟨2, ![128, 128]⟩
abbrev S64x128x1 : Shape := ⟨3, ![64, 128, 1]⟩
abbrev S1x128x128 : Shape := ⟨3, ![1, 128, 128]⟩
abbrev S64x1x128 : Shape := ⟨3, ![64, 1, 128]⟩

abbrev nBuf : Space → Nat
  | .hbm => 4
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S4096x128x128, .f32⟩
  | .hbm, ⟨2, _⟩ => ⟨S4096x128, .f32⟩
  | .hbm, ⟨3, _⟩ => ⟨S4096x128x128, .f32⟩
  | .local _ .vmem, ⟨0, _⟩ => ⟨S64x128, .f32⟩
  | .local _ .vmem, ⟨1, _⟩ => ⟨S64x128, .f32⟩
  | .local _ .vmem, ⟨2, _⟩ => ⟨S64x128x128, .f32⟩
  | .local _ .vmem, ⟨3, _⟩ => ⟨S64x128x128, .f32⟩
  | .local _ .vmem, ⟨4, _⟩ => ⟨S64x128, .f32⟩
  | .local _ .vmem, ⟨5, _⟩ => ⟨S64x128, .f32⟩
  | .local _ .vmem, ⟨6, _⟩ => ⟨S64x128x128, .f32⟩
  | .local _ .vmem, ⟨7, _⟩ => ⟨S64x128x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S64x128_S64x128_0_0 : ∀ a, (![0, 0] : Fin 2 → Nat) a + S64x128.size a ≤ S64x128.size a
  h_S64x128 : 0 < S64x128.numel
  reduces_S64x128_S64 : S64x128.Reduces [1] S64
  shapeCasts_S64_S64x1 : S64.ShapeCasts S64x1
  broadcasts_S64x1_S64x128 : S64x1.Broadcasts S64x128
  iota_S128x128_d0_w32 : S128x128.Iotas .tc 32 [0]
  iota_S128x128_d1_w32 : S128x128.Iotas .tc 32 [1]
  natLt_1_32 : 1 < 32
  shapeCasts_S64x128_S64x128x1 : S64x128.ShapeCasts S64x128x1
  shapeCasts_S128x128_S1x128x128 : S128x128.ShapeCasts S1x128x128
  broadcasts_S64x128x1_S64x128x128 : S64x128x1.Broadcasts S64x128x128
  broadcasts_S1x128x128_S64x128x128 : S1x128x128.Broadcasts S64x128x128
  shapeCasts_S64x128_S64x1x128 : S64x128.ShapeCasts S64x1x128
  broadcasts_S64x1x128_S64x128x128 : S64x1x128.Broadcasts S64x128x128
  bitsLt_bf16_f32 : FTy.bits .bf16 < FTy.bits .f32
  inb_S64x128x128_S64x128x128_0_0_0 : ∀ a, (![0, 0, 0] : Fin 3 → Nat) a + S64x128x128.size a ≤ S64x128x128.size a
  h_S64x128x128 : 0 < S64x128x128.numel
  dot_S64x128x128_S64x128x128_S64x128x128_2_1_1_2_0_0_wf : DotDims.WF S64x128x128 S64x128x128 S64x128x128 [2] [1] [1] [2] [0] [0]
  dot_S64x128x128_S64x128x128_S64x128x128_2_2_1_1_0_0_wf : DotDims.WF S64x128x128 S64x128x128 S64x128x128 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S4096x128.size a
  hwx0_0 : ∀ i : grid0.Coords, EltTy.bits .f32 = 32 ∨ (Rect.block (s := S4096x128) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128x128.size a ≤ S4096x128x128.size a
  hwx0_1 : ∀ i : grid0.Coords, EltTy.bits .f32 = 32 ∨ (Rect.block (s := S4096x128x128) S64x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S4096x128.size a
  hwx0_2 : ∀ i : grid0.Coords, EltTy.bits .f32 = 32 ∨ (Rect.block (s := S4096x128) S64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x128x128.size a ≤ S4096x128x128.size a
  hwx0_3 : ∀ i : grid0.Coords, EltTy.bits .f32 = 32 ∨ (Rect.block (s := S4096x128x128) S64x128x128.size (cc0_transform_3 i) (hinb0_3 i)).WholeWords (EltTy.packing .f32)

variable [Facts₀]

def dot_S64x128x128_S64x128x128_S64x128x128_2_1_1_2_0_0 : DotDims S64x128x128 S64x128x128 S64x128x128 where
  lhsContracting := [2]
  rhsContracting := [1]
  lhsNonContracting := [1]
  rhsNonContracting := [2]
  lhsBatch := [0]
  rhsBatch := [0]
  wf := dot_S64x128x128_S64x128x128_S64x128x128_2_1_1_2_0_0_wf
def dot_S64x128x128_S64x128x128_S64x128x128_2_2_1_1_0_0 : DotDims S64x128x128 S64x128x128 S64x128x128 where
  lhsContracting := [2]
  rhsContracting := [2]
  lhsNonContracting := [1]
  rhsNonContracting := [1]
  lhsBatch := [0]
  rhsBatch := [0]
  wf := dot_S64x128x128_S64x128x128_S64x128x128_2_2_1_1_0_0_wf

abbrev win0_0 : Pipeline.Window sig grid0 :=
  Pipeline.Window.ofSpec (Memref.whole main_arg0) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S64x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S64x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x128 : Shape := ⟨2, ![4096, 128]⟩
abbrev S4096x128x128 : Shape := ⟨3, ![4096, 128, 128]⟩
abbrev S_ : Shape := ⟨0, ![]⟩
abbrev S4096 : Shape := ⟨1, ![4096]⟩
abbrev S4096x1 : Shape := ⟨2, ![4096, 1]⟩
abbrev S128x128 : Shape := ⟨2, ![128, 128]⟩
abbrev S4096x128x1 : Shape := ⟨3, ![4096, 128, 1]⟩
abbrev S1x128x128 : Shape := ⟨3, ![1, 128, 128]⟩
abbrev S4096x1x128 : Shape := ⟨3, ![4096, 1, 128]⟩

abbrev nBuf : Space → Nat
  | .hbm => 36
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128x128, .f32⟩
  | .hbm, ⟨2, _⟩ => ⟨S_, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096x1, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x128, .f32⟩
  | .hbm, ⟨15, _⟩ => ⟨S4096x128, .f32⟩
  | .hbm, ⟨16, _⟩ => ⟨S128x128, .i32⟩
  | .hbm, ⟨17, _⟩ => ⟨S128x128, .i32⟩
  | .hbm, ⟨18, _⟩ => ⟨S_, .i32⟩
  | .hbm, ⟨19, _⟩ => ⟨S128x128, .i32⟩
  | .hbm, ⟨20, _⟩ => ⟨S128x128, .i32⟩
  | .hbm, ⟨21, _⟩ => ⟨S128x128, .i1⟩
  | .hbm, ⟨22, _⟩ => ⟨S128x128, .f32⟩
  | .hbm, ⟨23, _⟩ => ⟨S4096x128x1, .f32⟩
  | .hbm, ⟨24, _⟩ => ⟨S1x128x128, .f32⟩
  | .hbm, ⟨25, _⟩ => ⟨S4096x128x128, .f32⟩
  | .hbm, ⟨26, _⟩ => ⟨S4096x128x128, .f32⟩
  | .hbm, ⟨27, _⟩ => ⟨S4096x128x128, .f32⟩
  | .hbm, ⟨28, _⟩ => ⟨S4096x128x1, .f32⟩
  | .hbm, ⟨29, _⟩ => ⟨S4096x1x128, .f32⟩
  | .hbm, ⟨30, _⟩ => ⟨S4096x128x128, .f32⟩
  | .hbm, ⟨31, _⟩ => ⟨S4096x128x128, .f32⟩
  | .hbm, ⟨32, _⟩ => ⟨S4096x128x128, .f32⟩
  | .hbm, ⟨33, _⟩ => ⟨S4096x128x128, .f32⟩
  | .hbm, ⟨34, _⟩ => ⟨S4096x128x128, .f32⟩
  | .hbm, ⟨35, _⟩ => ⟨S4096x128x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]

class Facts₀ : Prop where
  reducesTo_S4096x128_S4096_d1 : S4096x128.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  bcast_S_S128x128 : S_.BroadcastsInDim S128x128 (![] : Fin 0 → Fin S128x128.rank)
  bcast_S4096x128_S4096x128x1_0_1 : S4096x128.BroadcastsInDim S4096x128x1 (![0, 1] : Fin 2 → Fin S4096x128x1.rank)
  bcast_S128x128_S1x128x128_1_2 : S128x128.BroadcastsInDim S1x128x128 (![1, 2] : Fin 2 → Fin S1x128x128.rank)
  bcast_S4096x128x1_S4096x128x128_0_1_2 : S4096x128x1.BroadcastsInDim S4096x128x128 (![0, 1, 2] : Fin 3 → Fin S4096x128x128.rank)
  bcast_S1x128x128_S4096x128x128_0_1_2 : S1x128x128.BroadcastsInDim S4096x128x128 (![0, 1, 2] : Fin 3 → Fin S4096x128x128.rank)
  bcast_S4096x128_S4096x1x128_0_2 : S4096x128.BroadcastsInDim S4096x1x128 (![0, 2] : Fin 2 → Fin S4096x1x128.rank)
  bcast_S4096x1x128_S4096x128x128_0_1_2 : S4096x1x128.BroadcastsInDim S4096x128x128 (![0, 1, 2] : Fin 3 → Fin S4096x128x128.rank)
  dot_S4096x128x128_S4096x128x128_S4096x128x128_1_2_2_1_0_0_wf : DotDims.WF S4096x128x128 S4096x128x128 S4096x128x128 [1] [2] [2] [1] [0] [0]

variable [Facts₀]

def dot_S4096x128x128_S4096x128x128_S4096x128x128_1_2_2_1_0_0 : DotDims S4096x128x128 S4096x128x128 S4096x128x128 where
  lhsContracting := [1]
  rhsContracting := [2]
  lhsNonContracting := [2]
  rhsNonContracting := [1]
  lhsBatch := [0]
  rhsBatch := [0]
  wf := dot_S4096x128x128_S4096x128x128_S4096x128x128_1_2_2_1_0_0_wf

class Facts : Prop extends Facts₀ where

variable [Facts]
-- ==== Proof.RowMath.lean ====
/-
  The mathematics of one batch row, on the extended reals.

  A row `r` of 128 numbers has a top, the maximum of its entries folded from −∞ (`rowTop`), and a softmax:
  `softRow r c = exp (r c − top) / Σ_k exp (r k − top)`.  For a row `p` the softmax Jacobian is
  `jac p i j = p i · δ_ij − p i · p j` (`eye` is δ), and for a 128 × 128 matrix `s` the product `J s Jᵀ`, grouped as
  `(J s) Jᵀ`, is `sandwich p s i l = Σ_k (Σ_j jac p i j · s j k) · jac p l k`.

  Two small facts are proved here.  Taking the maximum of −∞ with a row's top changes nothing (`max_negInf_rowTop`):
  the fold already starts from −∞.  And the inner products of the sandwich may be written with their factors in the
  other order (`sandwich_swap`): only commutativity of the product is used, so no finiteness is needed.
-/
import Idealize.ShloMosaic.PureOps.Ideal
import Idealize.ShloMosaic.PureOps.Ideal.Laws

noncomputable section

namespace Cert.RowMath

open Idealize.ShloMosaic

/-- −∞, spelt as both programs spell it: the f32 pattern of negative infinity read as an extended real. -/
abbrev negInf : EReal := Ideal.ofBits .f32 0xFF800000#32

/-- The largest entry of a row, folded from −∞. -/
def rowTop (r : Fin 128 → EReal) : EReal := (Finset.univ : Finset (Fin 128)).fold max negInf r

/-- The softmax of a row, entry `c`: the exponential of the entry's distance below the top, over the sum of all of them. -/
def softRow (r : Fin 128 → EReal) (c : Fin 128) : EReal :=
  Ideal.div (Ideal.exp (r c - rowTop r)) (∑ k : Fin 128, Ideal.exp (r k - rowTop r))

/-- Kronecker's delta on 128 indices. -/
def eye (i j : Fin 128) : EReal := if i = j then 1 else 0

/-- The softmax Jacobian of a row `p`: `p i · δ_ij − p i · p j`. -/
def jac (p : Fin 128 → EReal) (i j : Fin 128) : EReal := p i * eye i j - p i * p j

/-- `J s Jᵀ` with `J = jac p`, the first product taken first. -/
def sandwich (p : Fin 128 → EReal) (s : Fin 128 → Fin 128 → EReal) (i l : Fin 128) : EReal :=
  ∑ k : Fin 128, (∑ j : Fin 128, jac p i j * s j k) * jac p l k

/-- The fold starts from −∞, so the top is at least −∞, and the maximum of the two is the top. -/
theorem max_negInf_rowTop (r : Fin 128 → EReal) : max negInf (rowTop r) = rowTop r :=
  max_eq_right (Finset.le_fold_max negInf |>.mpr (Or.inl le_rfl))

/-- Two indices below 128 are the same number exactly when they are the same 32-bit word (both programs build the
    identity matrix by comparing a row counter with a column counter, each a 32-bit word). -/
theorem word_eq_iff (i j : Fin 128) : BitVec.ofNat 32 i.val = BitVec.ofNat 32 j.val ↔ i = j := by
  constructor
  · intro e
    have := congrArg BitVec.toNat e
    simp only [BitVec.toNat_ofNat] at this
    apply Fin.ext
    have hi := i.isLt
    have hj := j.isLt
    omega
  · rintro rfl; rfl

/-- The sandwich with the inner factors in the other order, `s j k · jac p i j`: the same number. -/
theorem sandwich_swap (p : Fin 128 → EReal) (s : Fin 128 → Fin 128 → EReal) (i l : Fin 128) :
    ∑ k : Fin 128, (∑ j : Fin 128, s j k * jac p i j) * jac p l k = sandwich p s i l := by
  unfold sandwich
  refine Finset.sum_congr rfl fun k _ => congrArg (· * jac p l k) ?_
  exact Finset.sum_congr rfl fun j _ => mul_comm _ _

end Cert.RowMath

end
-- ==== Proof.KernelSoftmax.lean ====
/-
  The first payload of the kernel body, read at an index of its block.

  On a block `x` of 64 rows the body takes each row's maximum, keeps it as a column, spreads it back over the row,
  subtracts, exponentiates, sums each row, spreads the sum likewise and divides.  A lane reduction over axis 1 read at
  row `p` is a fold or a sum over that row's 128 entries; a vector of 64 numbers kept as a 64 × 1 column and broadcast
  to 64 × 128 reads, at `(p, q)`, entry `p`.  So the payload at `(p, q)` is the softmax of row `p` at `q`.
-/
import proofs.«144107_j26499948216844_1_alg».proof.Proof.Gen.KernelIdeal.Skeleton
import proofs.«144107_j26499948216844_1_alg».proof.Proof.RowMath
import Idealize.ShloMosaic.Lib.Pipeline.Value
import Idealize.ShloMosaic.Lib.ValueIdx
import Idealize.ShloMosaic.PureOps.Ideal.Laws

noncomputable section

namespace Cert.KernelRow

open Idealize.ShloMosaic Idealize.ShloMosaic.ValueIdx Cert.KernelIdeal Cert.KernelIdeal.Gen Cert.RowMath

/-- A vector of 64 numbers kept as a 64 × 1 column and spread over 64 × 128 reads, at `(p, q)`, its entry `p`. -/
theorem spread_apply {α : Type} (v : S64.Idx → α) (h1 : S64.ShapeCasts S64x1) (h2 : S64x1.Broadcasts S64x128)
    (p : Fin 64) (q : Fin 128) :
    broadcastTo S64x128 (shapeCast S64x1 v h1) h2 (ix2 p q) = v (ix1 p) :=
  (broadcastTo_apply _ h2 (ix2 p q) (ix2 p (0 : Fin 1)) (fun a => match a with
      | ⟨0, _⟩ => by show p.val = if (64 : Nat) = 1 then 0 else p.val; rw [if_neg (by decide)]
      | ⟨1, _⟩ => by show 0 = if (1 : Nat) = 1 then 0 else q.val; rw [if_pos rfl])).trans
    (shapeCast_apply v h1 (ix2 p (0 : Fin 1)) (ix1 p) (by
      rw [Shape.rowMajor_val_one, Shape.rowMajor_val_two]; show p.val = p.val * 1 + 0; omega))

/-- Row `p` with column `k` put back into the reduced index is `(p, k)`. -/
theorem lift_row (h : S64x128.Reduces [1] S64) (p : Fin 64) (k : Fin 128) : h.lift (ix1 p) k = ix2 p k := by
  funext c
  match c with
  | ⟨0, _⟩ => rfl
  | ⟨1, _⟩ => rfl

/-- The lane maximum over axis 1, from −∞, at row `p`: the top of that row. -/
theorem laneMax_apply (x : FVec Ideal S64x128 .f32) (p : Fin 64) :
    multiReduction .maximumf [1] S64 x 0xFF800000#32 reduces_S64x128_S64 (.inl rfl) rfl (ix1 p)
      = rowTop (fun k => x (ix2 p k)) := by
  refine (Ideal.multiReduction_maximumf_single x 0xFF800000#32 reduces_S64x128_S64 (.inl rfl) rfl (ix1 p)).trans ?_
  unfold rowTop
  exact congrArg (fun f => Finset.fold max negInf f (Finset.univ : Finset (Fin 128)))
    (funext fun k => congrArg x (lift_row reduces_S64x128_S64 p k))

/-- The lane sum over axis 1, from zero, at row `p`: the sum of that row. -/
theorem laneSum_apply (x : FVec Ideal S64x128 .f32) (p : Fin 64) :
    multiReduction .add [1] S64 x 0x00000000#32 reduces_S64x128_S64 (.inl rfl) rfl (ix1 p)
      = ∑ k : Fin 128, x (ix2 p k) := by
  refine (Ideal.multiReduction_add_single x 0x00000000#32 reduces_S64x128_S64 (.inl rfl) rfl (ix1 p)).trans ?_
  exact Finset.sum_congr rfl fun k _ => congrArg x (lift_row reduces_S64x128_S64 p k)

/-- Each entry less its row's top, exponentiated: at `(p, q)` the exponential of entry `(p, q)`'s distance below the
    top of row `p`. -/
theorem expBelowTop_apply (x : FVec Ideal S64x128 .f32) (p : Fin 64) (q : Fin 128) :
    exp (subf x (broadcastTo S64x128 (shapeCast S64x1
        (multiReduction .maximumf [1] S64 x 0xFF800000#32 reduces_S64x128_S64 (.inl rfl) rfl) shapeCasts_S64_S64x1)
        broadcasts_S64x1_S64x128)) (ix2 p q)
      = Ideal.exp (x (ix2 p q) - rowTop (fun k => x (ix2 p k))) := by
  show Ideal.exp (x (ix2 p q) - broadcastTo S64x128 (shapeCast S64x1 _ _) _ (ix2 p q)) = _
  rw [spread_apply, laneMax_apply]

/-- The first payload at `(p, q)`: the softmax of the block's row `p`, entry `q`. -/
theorem pay1_apply (x : FVec Ideal S64x128 .f32) (p : Fin 64) (q : Fin 128) :
    k0_pay1 (F := Ideal) x (ix2 p q) = softRow (fun k => x (ix2 p k)) q := by
  unfold k0_pay1 softRow
  show Ideal.div (exp (subf x _) (ix2 p q)) (broadcastTo S64x128 (shapeCast S64x1 _ _) _ (ix2 p q)) = _
  rw [spread_apply, laneSum_apply, expBelowTop_apply]
  exact congrArg _ (Finset.sum_congr rfl fun k _ => expBelowTop_apply x p k)

end Cert.KernelRow

end
-- ==== Proof.KernelSandwich.lean ====
/-
  The second payload of the kernel body, read at an index of its block.

  From the softmax `P` of the block's rows the body forms, for every row `p`, the Jacobian
  `J(p, i, j) = P(p, i) · δ(i, j) − P(p, i) · P(p, j)`: `P` kept as 64 × 128 × 1 and spread along the last axis gives
  `P(p, i)`, kept as 64 × 1 × 128 and spread along the middle axis gives `P(p, j)`, and the identity matrix — row
  number equals column number, as a float — kept as 1 × 128 × 128 and spread along the first axis gives `δ(i, j)`.
  Two batched matrix products follow, each into a zero accumulator: `T(p, i, k) = Σ_j J(p, i, j) · σ(p, j, k)` and
  `Y(p, i, l) = Σ_k T(p, i, k) · J(p, l, k)`.  A change of float format is the identity on the extended reals.
  So the payload at `(p, i, l)` is the sandwich of row `p`'s Jacobian around `σ(p, ·, ·)`.
-/
import proofs.«144107_j26499948216844_1_alg».proof.Proof.KernelSoftmax
import Idealize.ShloMosaic.Lib.StableHlo.Predicate

noncomputable section

namespace Cert.KernelRow

open Idealize.ShloMosaic Idealize.ShloMosaic.ValueIdx Cert.KernelIdeal Cert.KernelIdeal.Gen Cert.RowMath

/-! ## Three ways of spreading a smaller array over 64 × 128 × 128 -/

/-- A 64 × 128 array kept as 64 × 128 × 1 and spread along the last axis reads, at `(p, i, j)`, its entry `(p, i)`. -/
theorem alongLast_apply {α : Type} (v : S64x128.Idx → α) (h1 : S64x128.ShapeCasts S64x128x1)
    (h2 : S64x128x1.Broadcasts S64x128x128) (p : Fin 64) (i j : Fin 128) :
    broadcastTo S64x128x128 (shapeCast S64x128x1 v h1) h2 (ix3 p i j) = v (ix2 p i) :=
  (broadcastTo_apply _ h2 (ix3 p i j) (ix3 p i (0 : Fin 1)) (fun a => match a with
      | ⟨0, _⟩ => by show p.val = if (64 : Nat) = 1 then 0 else p.val; rw [if_neg (by decide)]
      | ⟨1, _⟩ => by show i.val = if (128 : Nat) = 1 then 0 else i.val; rw [if_neg (by decide)]
      | ⟨2, _⟩ => by show 0 = if (1 : Nat) = 1 then 0 else j.val; rw [if_pos rfl])).trans
    (shapeCast_apply v h1 (ix3 p i (0 : Fin 1)) (ix2 p i) (by
      rw [Shape.rowMajor_val_two, Shape.rowMajor_val_three]
      show p.val * 128 + i.val = (p.val * 128 + i.val) * 1 + 0; omega))

/-- A 64 × 128 array kept as 64 × 1 × 128 and spread along the middle axis reads, at `(p, i, j)`, its entry `(p, j)`. -/
theorem alongMiddle_apply {α : Type} (v : S64x128.Idx → α) (h1 : S64x128.ShapeCasts S64x1x128)
    (h2 : S64x1x128.Broadcasts S64x128x128) (p : Fin 64) (i j : Fin 128) :
    broadcastTo S64x128x128 (shapeCast S64x1x128 v h1) h2 (ix3 p i j) = v (ix2 p j) :=
  (broadcastTo_apply _ h2 (ix3 p i j) (ix3 p (0 : Fin 1) j) (fun a => match a with
      | ⟨0, _⟩ => by show p.val = if (64 : Nat) = 1 then 0 else p.val; rw [if_neg (by decide)]
      | ⟨1, _⟩ => by show 0 = if (1 : Nat) = 1 then 0 else i.val; rw [if_pos rfl]
      | ⟨2, _⟩ => by show j.val = if (128 : Nat) = 1 then 0 else j.val; rw [if_neg (by decide)])).trans
    (shapeCast_apply v h1 (ix3 p (0 : Fin 1) j) (ix2 p j) (by
      rw [Shape.rowMajor_val_two, Shape.rowMajor_val_three]
      show p.val * 128 + j.val = (p.val * 1 + 0) * 128 + j.val; omega))

/-- A 128 × 128 array kept as 1 × 128 × 128 and spread along the first axis reads, at `(p, i, j)`, its entry `(i, j)`. -/
theorem alongFirst_apply {α : Type} (e : S128x128.Idx → α) (h1 : S128x128.ShapeCasts S1x128x128)
    (h2 : S1x128x128.Broadcasts S64x128x128) (p : Fin 64) (i j : Fin 128) :
    broadcastTo S64x128x128 (shapeCast S1x128x128 e h1) h2 (ix3 p i j) = e (ix2 i j) :=
  (broadcastTo_apply _ h2 (ix3 p i j) (ix3 (0 : Fin 1) i j) (fun a => match a with
      | ⟨0, _⟩ => by show 0 = if (1 : Nat) = 1 then 0 else p.val; rw [if_pos rfl]
      | ⟨1, _⟩ => by show i.val = if (128 : Nat) = 1 then 0 else i.val; rw [if_neg (by decide)]
      | ⟨2, _⟩ => by show j.val = if (128 : Nat) = 1 then 0 else j.val; rw [if_neg (by decide)])).trans
    (shapeCast_apply e h1 (ix3 (0 : Fin 1) i j) (ix2 i j) (by
      rw [Shape.rowMajor_val_two, Shape.rowMajor_val_three]
      show i.val * 128 + j.val = (0 * 128 + i.val) * 128 + j.val; omega))

/-! ## The identity matrix -/

/-- The identity matrix as the body makes it: the row number compared with the column number, the bit widened to a
    word and read as a signed number. -/
abbrev eyeBlock : FVec Ideal S128x128 .f32 :=
  sitofp .f32 (extui 32 (cmpi .eq (iota .tc S128x128 32 [0] iota_S128x128_d0_w32) (iota .tc S128x128 32 [1] iota_S128x128_d1_w32)) natLt_1_32)

/-- It is Kronecker's delta. -/
theorem eyeBlock_apply (i j : Fin 128) : eyeBlock (ix2 i j) = eye i j := by
  show FloatOps.sitofp (F := Ideal) .f32 ((IntOp.cmpi .eq (iota .tc S128x128 32 [0] iota_S128x128_d0_w32 (ix2 i j))
      (iota .tc S128x128 32 [1] iota_S128x128_d1_w32 (ix2 i j))).setWidth 32) = _
  rw [iota_single_apply, iota_single_apply]
  show (((IntOp.cmpi .eq (BitVec.ofNat 32 i.val) (BitVec.ofNat 32 j.val)).setWidth 32).toInt : ℝ) = (eye i j : EReal)
  unfold eye
  by_cases h : i = j
  · rw [if_pos h, StableHlo.Predicate.cmpi_eq_iff.mpr ((word_eq_iff i j).mpr h)]
    norm_num
  · rw [if_neg h, eq_zero_of_ne_one (fun e => h ((word_eq_iff i j).mp (StableHlo.Predicate.cmpi_eq_iff.mp e)))]
    norm_num

/-! ## The Jacobian of every row of the block -/

/-- The Jacobian as the body forms it from the first payload `P`: `P` along the last axis times the identity along the
    first, less `P` along the last axis times `P` along the middle one. -/
abbrev jacBlock (x : FVec Ideal S64x128 .f32) : FVec Ideal S64x128x128 .f32 :=
  subf
    (mulf (broadcastTo S64x128x128 (shapeCast S64x128x1 (k0_pay1 x) shapeCasts_S64x128_S64x128x1) broadcasts_S64x128x1_S64x128x128)
      (broadcastTo S64x128x128 (shapeCast S1x128x128 eyeBlock shapeCasts_S128x128_S1x128x128) broadcasts_S1x128x128_S64x128x128))
    (mulf (broadcastTo S64x128x128 (shapeCast S64x128x1 (k0_pay1 x) shapeCasts_S64x128_S64x128x1) broadcasts_S64x128x1_S64x128x128)
      (broadcastTo S64x128x128 (shapeCast S64x1x128 (k0_pay1 x) shapeCasts_S64x128_S64x1x128) broadcasts_S64x1x128_S64x128x128))

/-- At `(p, i, j)` it is the softmax Jacobian of row `p` at `(i, j)`. -/
theorem jacBlock_apply (x : FVec Ideal S64x128 .f32) (p : Fin 64) (i j : Fin 128) :
    jacBlock x (ix3 p i j) = jac (softRow (fun k => x (ix2 p k))) i j := by
  show broadcastTo S64x128x128 (shapeCast S64x128x1 _ _) _ (ix3 p i j) * broadcastTo S64x128x128 (shapeCast S1x128x128 _ _) _ (ix3 p i j)
      - broadcastTo S64x128x128 (shapeCast S64x128x1 _ _) _ (ix3 p i j) * broadcastTo S64x128x128 (shapeCast S64x1x128 _ _) _ (ix3 p i j) = _
  rw [alongLast_apply, alongFirst_apply, alongMiddle_apply, eyeBlock_apply, pay1_apply, pay1_apply]
  rfl

/-! ## The first product: rows of the left factor against columns of the right, batch by batch -/

theorem lhsRowsCols_0 (i : S64x128x128.Idx) (q : dot_S64x128x128_S64x128x128_S64x128x128_2_1_1_2_0_0.contr.Idx) :
    (dot_S64x128x128_S64x128x128_S64x128x128_2_1_1_2_0_0.lhsIdx i q 0).val = (i 0).val := by
  unfold DotDims.lhsIdx
  rw [dif_pos (show (0 : Fin S64x128x128.rank) ∈ dot_S64x128x128_S64x128x128_S64x128x128_2_1_1_2_0_0.lhsBatch by decide)]
  rfl
theorem lhsRowsCols_1 (i : S64x128x128.Idx) (q : dot_S64x128x128_S64x128x128_S64x128x128_2_1_1_2_0_0.contr.Idx) :
    (dot_S64x128x128_S64x128x128_S64x128x128_2_1_1_2_0_0.lhsIdx i q 1).val = (i 1).val := by
  unfold DotDims.lhsIdx
  rw [dif_neg (show ¬(1 : Fin S64x128x128.rank) ∈ dot_S64x128x128_S64x128x128_S64x128x128_2_1_1_2_0_0.lhsBatch by decide), dif_pos (show (1 : Fin S64x128x128.rank) ∈ dot_S64x128x128_S64x128x128_S64x128x128_2_1_1_2_0_0.lhsNonContracting by decide)]
  rfl
theorem lhsRowsCols_2 (i : S64x128x128.Idx) (q : dot_S64x128x128_S64x128x128_S64x128x128_2_1_1_2_0_0.contr.Idx) :
    (dot_S64x128x128_S64x128x128_S64x128x128_2_1_1_2_0_0.lhsIdx i q 2).val = (q ⟨0, by decide⟩).val :=
  dot_S64x128x128_S64x128x128_S64x128x128_2_1_1_2_0_0.lhsIdx_val_of_single rfl i q
theorem rhsRowsCols_0 (i : S64x128x128.Idx) (q : dot_S64x128x128_S64x128x128_S64x128x128_2_1_1_2_0_0.contr.Idx) :
    (dot_S64x128x128_S64x128x128_S64x128x128_2_1_1_2_0_0.rhsIdx i q 0).val = (i 0).val := by
  unfold DotDims.rhsIdx
  rw [dif_pos (show (0 : Fin S64x128x128.rank) ∈ dot_S64x128x128_S64x128x128_S64x128x128_2_1_1_2_0_0.rhsBatch by decide)]
  rfl
theorem rhsRowsCols_1 (i : S64x128x128.Idx) (q : dot_S64x128x128_S64x128x128_S64x128x128_2_1_1_2_0_0.contr.Idx) :
    (dot_S64x128x128_S64x128x128_S64x128x128_2_1_1_2_0_0.rhsIdx i q 1).val = (q ⟨0, by decide⟩).val :=
  dot_S64x128x128_S64x128x128_S64x128x128_2_1_1_2_0_0.rhsIdx_val_of_single rfl i q
theorem rhsRowsCols_2 (i : S64x128x128.Idx) (q : dot_S64x128x128_S64x128x128_S64x128x128_2_1_1_2_0_0.contr.Idx) :
    (dot_S64x128x128_S64x128x128_S64x128x128_2_1_1_2_0_0.rhsIdx i q 2).val = (i 2).val := by
  unfold DotDims.rhsIdx
  rw [dif_neg (show ¬(2 : Fin S64x128x128.rank) ∈ dot_S64x128x128_S64x128x128_S64x128x128_2_1_1_2_0_0.rhsBatch by decide), dif_pos (show (2 : Fin S64x128x128.rank) ∈ dot_S64x128x128_S64x128x128_S64x128x128_2_1_1_2_0_0.rhsNonContracting by decide)]
  rfl

/-- The product into a zero accumulator that contracts the left factor's last axis with the right factor's middle axis:
    at `(p, i, k)` the sum over `j` of left `(p, i, j)` times right `(p, j, k)`. -/
theorem rowsCols_apply (a b : FVec Ideal S64x128x128 .bf16) (p : Fin 64) (i k : Fin 128) :
    matmul dot_S64x128x128_S64x128x128_S64x128x128_2_1_1_2_0_0 none a b (constant S64x128x128 .f32 0x00000000#32) (ix3 p i k)
      = ∑ j : Fin 128, a (ix3 p i j) * b (ix3 p j k) := by
  simp only [matmul]
  rw [Ideal.matmul_constant_zero_apply, ← Equiv.sum_comp (ValueIdx.contrEquiv1 dot_S64x128x128_S64x128x128_S64x128x128_2_1_1_2_0_0 128 rfl rfl).symm]
  refine Finset.sum_congr rfl fun j _ => ?_
  have hj := ValueIdx.contrEquiv1_symm_val dot_S64x128x128_S64x128x128_S64x128x128_2_1_1_2_0_0 128 rfl rfl j
  have el : dot_S64x128x128_S64x128x128_S64x128x128_2_1_1_2_0_0.lhsIdx (ix3 p i k) ((ValueIdx.contrEquiv1 dot_S64x128x128_S64x128x128_S64x128x128_2_1_1_2_0_0 128 rfl rfl).symm j) = ix3 p i j := funext fun c => Fin.ext (by
    match c with
    | ⟨0, _⟩ => exact lhsRowsCols_0 _ _
    | ⟨1, _⟩ => exact lhsRowsCols_1 _ _
    | ⟨2, _⟩ => exact (lhsRowsCols_2 _ _).trans hj)
  have er : dot_S64x128x128_S64x128x128_S64x128x128_2_1_1_2_0_0.rhsIdx (ix3 p i k) ((ValueIdx.contrEquiv1 dot_S64x128x128_S64x128x128_S64x128x128_2_1_1_2_0_0 128 rfl rfl).symm j) = ix3 p j k := funext fun c => Fin.ext (by
    match c with
    | ⟨0, _⟩ => exact rhsRowsCols_0 _ _
    | ⟨1, _⟩ => exact (rhsRowsCols_1 _ _).trans hj
    | ⟨2, _⟩ => exact rhsRowsCols_2 _ _)
  rw [el, er]

/-! ## The second product: rows of the left factor against rows of the right, batch by batch -/

theorem lhsRowsRows_0 (i : S64x128x128.Idx) (q : dot_S64x128x128_S64x128x128_S64x128x128_2_2_1_1_0_0.contr.Idx) :
    (dot_S64x128x128_S64x128x128_S64x128x128_2_2_1_1_0_0.lhsIdx i q 0).val = (i 0).val := by
  unfold DotDims.lhsIdx
  rw [dif_pos (show (0 : Fin S64x128x128.rank) ∈ dot_S64x128x128_S64x128x128_S64x128x128_2_2_1_1_0_0.lhsBatch by decide)]
  rfl
theorem lhsRowsRows_1 (i : S64x128x128.Idx) (q : dot_S64x128x128_S64x128x128_S64x128x128_2_2_1_1_0_0.contr.Idx) :
    (dot_S64x128x128_S64x128x128_S64x128x128_2_2_1_1_0_0.lhsIdx i q 1).val = (i 1).val := by
  unfold DotDims.lhsIdx
  rw [dif_neg (show ¬(1 : Fin S64x128x128.rank) ∈ dot_S64x128x128_S64x128x128_S64x128x128_2_2_1_1_0_0.lhsBatch by decide), dif_pos (show (1 : Fin S64x128x128.rank) ∈ dot_S64x128x128_S64x128x128_S64x128x128_2_2_1_1_0_0.lhsNonContracting by decide)]
  rfl
theorem lhsRowsRows_2 (i : S64x128x128.Idx) (q : dot_S64x128x128_S64x128x128_S64x128x128_2_2_1_1_0_0.contr.Idx) :
    (dot_S64x128x128_S64x128x128_S64x128x128_2_2_1_1_0_0.lhsIdx i q 2).val = (q ⟨0, by decide⟩).val :=
  dot_S64x128x128_S64x128x128_S64x128x128_2_2_1_1_0_0.lhsIdx_val_of_single rfl i q
theorem rhsRowsRows_0 (i : S64x128x128.Idx) (q : dot_S64x128x128_S64x128x128_S64x128x128_2_2_1_1_0_0.contr.Idx) :
    (dot_S64x128x128_S64x128x128_S64x128x128_2_2_1_1_0_0.rhsIdx i q 0).val = (i 0).val := by
  unfold DotDims.rhsIdx
  rw [dif_pos (show (0 : Fin S64x128x128.rank) ∈ dot_S64x128x128_S64x128x128_S64x128x128_2_2_1_1_0_0.rhsBatch by decide)]
  rfl
theorem rhsRowsRows_1 (i : S64x128x128.Idx) (q : dot_S64x128x128_S64x128x128_S64x128x128_2_2_1_1_0_0.contr.Idx) :
    (dot_S64x128x128_S64x128x128_S64x128x128_2_2_1_1_0_0.rhsIdx i q 1).val = (i 2).val := by
  unfold DotDims.rhsIdx
  rw [dif_neg (show ¬(1 : Fin S64x128x128.rank) ∈ dot_S64x128x128_S64x128x128_S64x128x128_2_2_1_1_0_0.rhsBatch by decide), dif_pos (show (1 : Fin S64x128x128.rank) ∈ dot_S64x128x128_S64x128x128_S64x128x128_2_2_1_1_0_0.rhsNonContracting by decide)]
  rfl
theorem rhsRowsRows_2 (i : S64x128x128.Idx) (q : dot_S64x128x128_S64x128x128_S64x128x128_2_2_1_1_0_0.contr.Idx) :
    (dot_S64x128x128_S64x128x128_S64x128x128_2_2_1_1_0_0.rhsIdx i q 2).val = (q ⟨0, by decide⟩).val :=
  dot_S64x128x128_S64x128x128_S64x128x128_2_2_1_1_0_0.rhsIdx_val_of_single rfl i q

/-- The product into a zero accumulator that contracts the last axes of both factors: at `(p, i, l)` the sum over `k`
    of left `(p, i, k)` times right `(p, l, k)`. -/
theorem rowsRows_apply (a b : FVec Ideal S64x128x128 .bf16) (p : Fin 64) (i l : Fin 128) :
    matmul dot_S64x128x128_S64x128x128_S64x128x128_2_2_1_1_0_0 none a b (constant S64x128x128 .f32 0x00000000#32) (ix3 p i l)
      = ∑ k : Fin 128, a (ix3 p i k) * b (ix3 p l k) := by
  simp only [matmul]
  rw [Ideal.matmul_constant_zero_apply, ← Equiv.sum_comp (ValueIdx.contrEquiv1 dot_S64x128x128_S64x128x128_S64x128x128_2_2_1_1_0_0 128 rfl rfl).symm]
  refine Finset.sum_congr rfl fun k _ => ?_
  have hk := ValueIdx.contrEquiv1_symm_val dot_S64x128x128_S64x128x128_S64x128x128_2_2_1_1_0_0 128 rfl rfl k
  have el : dot_S64x128x128_S64x128x128_S64x128x128_2_2_1_1_0_0.lhsIdx (ix3 p i l) ((ValueIdx.contrEquiv1 dot_S64x128x128_S64x128x128_S64x128x128_2_2_1_1_0_0 128 rfl rfl).symm k) = ix3 p i k := funext fun c => Fin.ext (by
    match c with
    | ⟨0, _⟩ => exact lhsRowsRows_0 _ _
    | ⟨1, _⟩ => exact lhsRowsRows_1 _ _
    | ⟨2, _⟩ => exact (lhsRowsRows_2 _ _).trans hk)
  have er : dot_S64x128x128_S64x128x128_S64x128x128_2_2_1_1_0_0.rhsIdx (ix3 p i l) ((ValueIdx.contrEquiv1 dot_S64x128x128_S64x128x128_S64x128x128_2_2_1_1_0_0 128 rfl rfl).symm k) = ix3 p l k := funext fun c => Fin.ext (by
    match c with
    | ⟨0, _⟩ => exact rhsRowsRows_0 _ _
    | ⟨1, _⟩ => exact rhsRowsRows_1 _ _
    | ⟨2, _⟩ => exact (rhsRowsRows_2 _ _).trans hk)
  rw [el, er]

/-! ## The second payload -/

/-- The second payload is the two products over the Jacobian block and the loaded `σ` block, the float formats changed
    in between. -/
theorem pay2_eq (x : FVec Ideal S64x128 .f32) (s : FVec Ideal S64x128x128 .f32) :
    k0_pay2 (F := Ideal) x s
      = matmul dot_S64x128x128_S64x128x128_S64x128x128_2_2_1_1_0_0 none
          (truncf .bf16 (matmul dot_S64x128x128_S64x128x128_S64x128x128_2_1_1_2_0_0 none
              (truncf .bf16 (jacBlock x) bitsLt_bf16_f32) (truncf .bf16 s bitsLt_bf16_f32)
              (constant S64x128x128 .f32 0x00000000#32)) bitsLt_bf16_f32)
          (truncf .bf16 (jacBlock x) bitsLt_bf16_f32) (constant S64x128x128 .f32 0x00000000#32) := rfl

/-- The second payload at `(p, i, l)`: the sandwich of row `p`'s Jacobian around the `σ` block's matrix `p`. -/
theorem pay2_apply (x : FVec Ideal S64x128 .f32) (s : FVec Ideal S64x128x128 .f32) (p : Fin 64) (i l : Fin 128) :
    k0_pay2 (F := Ideal) x s (ix3 p i l)
      = sandwich (softRow (fun k => x (ix2 p k))) (fun j k => s (ix3 p j k)) i l := by
  rw [pay2_eq, rowsRows_apply]
  unfold sandwich
  refine Finset.sum_congr rfl fun k _ => ?_
  show matmul dot_S64x128x128_S64x128x128_S64x128x128_2_1_1_2_0_0 none _ _ _ (ix3 p i k) * jacBlock x (ix3 p l k) = _
  rw [rowsCols_apply, jacBlock_apply]
  refine congrArg (· * _) (Finset.sum_congr rfl fun j _ => ?_)
  show jacBlock x (ix3 p i j) * s (ix3 p j k) = _
  rw [jacBlock_apply]

end Cert.KernelRow

end
-- ==== Proof.WholeArrays.lean ====
/-
  The two results as whole arrays, each one function of the argument arrays index by index.

  Every batch row is treated alone: entry `(b, c)` of the first result is the softmax of row `b` of `μ` at `c`, and entry
  `(b, i, l)` of the second is the sandwich, at `(i, l)`, of that row's softmax Jacobian around the matrix `σ(b, ·, ·)`.
-/
import proofs.«144107_j26499948216844_1_alg».proof.Proof.RowMath
import Idealize.ShloMosaic.Lib.ValueIdx

noncomputable section

namespace Cert.RowMath

open Idealize.ShloMosaic Idealize.ShloMosaic.ValueIdx

/-- The softmax of every row of a 4096 × 128 array. -/
def softArr (mu : (⟨2, ![4096, 128]⟩ : Shape).Idx → EReal) : (⟨2, ![4096, 128]⟩ : Shape).Idx → EReal :=
  fun y => softRow (fun k => mu (ix2 (y 0) k)) (y 1)

/-- For every row, the sandwich of its softmax Jacobian around its 128 × 128 matrix. -/
def sandwichArr (mu : (⟨2, ![4096, 128]⟩ : Shape).Idx → EReal) (sigma : (⟨3, ![4096, 128, 128]⟩ : Shape).Idx → EReal) :
    (⟨3, ![4096, 128, 128]⟩ : Shape).Idx → EReal :=
  fun y => sandwich (softRow (fun k => mu (ix2 (y 0) k))) (fun j k => sigma (ix3 (y 0) j k)) (y 1) (y 2)

theorem softArr_apply (mu : (⟨2, ![4096, 128]⟩ : Shape).Idx → EReal) (b : Fin 4096) (c : Fin 128) :
    softArr mu (ix2 b c) = softRow (fun k => mu (ix2 b k)) c := rfl

theorem sandwichArr_apply (mu : (⟨2, ![4096, 128]⟩ : Shape).Idx → EReal)
    (sigma : (⟨3, ![4096, 128, 128]⟩ : Shape).Idx → EReal) (b : Fin 4096) (i l : Fin 128) :
    sandwichArr mu sigma (ix3 b i l) = sandwich (softRow (fun k => mu (ix2 b k))) (fun j k => sigma (ix3 b j k)) i l := rfl

end Cert.RowMath

end
-- ==== Proof.KernelArrays.lean ====
/-
  From the blocks to the arrays: what the kernel's run leaves in its two result arrays.

  Grid point `t` works on batch rows `64 t … 64 t + 63`: each of the four windows' blocks at `t` is those rows of its
  array (`block_index`, `rows_of_mu`, `rows_of_sigma`).  The body's two stores each cover their whole block, so what point `t`
  writes back is the first payload, respectively the second, of the input blocks; read at an index these are the softmax
  and the sandwich of the block's row (the payload lemmas), and the block's row `p` is row `64 t + p` of the argument.  Hence
  point `t` writes block `t` of the whole-array functions `softArr` and `sandwichArr` (`wrote_soft`, `wrote_sandwich`).  The 64
  blocks tile the 4096 rows — row `r` lies in block `r / 64` — so after the run the arrays are those functions.
-/
import proofs.«144107_j26499948216844_1_alg».proof.Proof.Gen.KernelIdeal.Value
import proofs.«144107_j26499948216844_1_alg».proof.Proof.KernelSandwich
import proofs.«144107_j26499948216844_1_alg».proof.Proof.WholeArrays

noncomputable section

namespace Cert.KernelArrays

open Cert.KernelIdeal Cert.KernelIdeal.Gen Cert.KernelIdeal.Value Idealize.ShloMosaic Idealize.ShloMosaic.TcCoe Idealize.SL.Sem
open Idealize.ShloMosaic.ValueIdx Cert.RowMath Cert.KernelRow
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- Each window's block index at point `t` is `t` along the batch axis and zero along the others (decided over the
    64 points). -/
theorem block_index : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-! ## What the body leaves in each output block, at an index -/

/-- The first output block after the body, at `(p, q)`: the softmax of the `μ` block's row `p` at `q`. -/
theorem out_soft (x0 : Vec Ideal S64x128 .f32) (x1 : Vec Ideal S64x128x128 .f32) (p : Fin 64) (q : Fin 128) :
    out0_2 x0 x1 (ix2 p q) = softRow (fun k => x0 (ix2 p k)) q := by
  unfold out0_2
  rw [View.canon_unit_zero hz2]
  simp only [View.ld_unit_zero (S := S64x128) hz2]
  exact pay1_apply x0 p q

/-- The second output block after the body, at `(p, i, l)`: the sandwich of row `p`'s Jacobian around matrix `p` of the `σ`
    block. -/
theorem out_sandwich (x0 : Vec Ideal S64x128 .f32) (x1 : Vec Ideal S64x128x128 .f32) (p : Fin 64) (i l : Fin 128) :
    out0_3 x0 x1 (ix3 p i l) = sandwich (softRow (fun k => x0 (ix2 p k))) (fun j k => x1 (ix3 p j k)) i l := by
  unfold out0_3
  rw [View.canon_unit_zero hz3]
  simp only [View.ld_unit_zero (S := S64x128) hz2, View.ld_unit_zero (S := S64x128x128) hz3]
  exact pay2_apply x0 x1 p i l

/-! ## The input blocks as rows of the arguments -/

/-- There are 64 grid points. -/
theorem point_lt (t : Fin cfg0.N) : t.val < 64 := Nat.lt_of_lt_of_eq t.isLt N_0

/-- The `μ` window's block at point `t`, at `(p, k)`, is the argument's entry `(r, k)` with `r = 64 t + p`. -/
theorem rows_of_mu (c : Dev nD) (t : Fin cfg0.N) (p : Fin 64) (k : Fin 128) (r : Fin 4096) (hr : r.val = 64 * t.val + p.val) :
    (iblk m c 0 t : Vec Ideal S64x128 .f32) (ix2 p k) = (V m c main_arg0 : S4096x128.Idx → EReal) (ix2 r k) := by
  obtain ⟨h0, h1, -⟩ := block_index t
  unfold iblk
  rw [View.read_apply]
  show V m c main_arg0 _ = V m c main_arg0 _
  congr 1
  funext a
  apply Fin.ext
  match a with
  | ⟨0, _⟩ => show win0_0.index t 0 * 64 + 1 * p.val = r.val; rw [h0, hr]; omega
  | ⟨1, _⟩ => show win0_0.index t 1 * 128 + 1 * k.val = k.val; rw [h1]; omega

/-- The `σ` window's block at point `t`, at `(p, j, k)`, is the argument's entry `(r, j, k)` with `r = 64 t + p`. -/
theorem rows_of_sigma (c : Dev nD) (t : Fin cfg0.N) (p : Fin 64) (j k : Fin 128) (r : Fin 4096) (hr : r.val = 64 * t.val + p.val) :
    (iblk m c 1 t : Vec Ideal S64x128x128 .f32) (ix3 p j k) = (V m c main_arg1 : S4096x128x128.Idx → EReal) (ix3 r j k) := by
  obtain ⟨-, -, h0, h1, h2, -⟩ := block_index t
  unfold iblk
  rw [View.read_apply]
  show V m c main_arg1 _ = V m c main_arg1 _
  congr 1
  funext a
  apply Fin.ext
  match a with
  | ⟨0, _⟩ => show win0_1.index t 0 * 64 + 1 * p.val = r.val; rw [h0, hr]; omega
  | ⟨1, _⟩ => show win0_1.index t 1 * 128 + 1 * j.val = j.val; rw [h1]; omega
  | ⟨2, _⟩ => show win0_1.index t 2 * 128 + 1 * k.val = k.val; rw [h2]; omega

/-! ## What each point writes back -/

/-- Point `t` writes back block `t` of the whole-array softmax. -/
theorem wrote_soft (c : Dev nD) (t : Fin cfg0.N) :
    (dats m 0 c).flushed 2 t = ((cfg0.win 2).blk t).view.read (Elt Ideal) (softArr (V m c main_arg0)) := by
  rw [flushed2]
  funext y
  obtain ⟨p, q, rfl⟩ : ∃ (p : Fin 64) (q : Fin 128), y = ix2 p q := ⟨y 0, y 1, eq_ix2 y⟩
  have ht := point_lt t
  obtain ⟨-, -, -, -, -, h0, h1, -⟩ := block_index t
  have e : ((cfg0.win 2).blk t).view.emb (ix2 p q) = ix2 (⟨64 * t.val + p.val, by omega⟩ : Fin 4096) q := by
    funext a
    apply Fin.ext
    match a with
    | ⟨0, _⟩ => show win0_2.index t 0 * 64 + 1 * p.val = 64 * t.val + p.val; rw [h0]; omega
    | ⟨1, _⟩ => show win0_2.index t 1 * 128 + 1 * q.val = q.val; rw [h1]; omega
  show out0_2 (iblk m c 0 t) (iblk m c 1 t) (ix2 p q) = softArr (V m c main_arg0) (((cfg0.win 2).blk t).view.emb (ix2 p q))
  rw [e, softArr_apply]
  refine (out_soft (iblk m c 0 t) (iblk m c 1 t) p q).trans ?_
  exact congrArg (fun r => softRow r q) (funext fun k => rows_of_mu m c t p k _ rfl)

/-- Point `t` writes back block `t` of the whole-array sandwich. -/
theorem wrote_sandwich (c : Dev nD) (t : Fin cfg0.N) :
    (dats m 0 c).flushed 3 t
      = ((cfg0.win 3).blk t).view.read (Elt Ideal) (sandwichArr (V m c main_arg0) (V m c main_arg1)) := by
  rw [flushed3]
  funext y
  obtain ⟨p, i, l, rfl⟩ : ∃ (p : Fin 64) (i l : Fin 128), y = ix3 p i l := ⟨y 0, y 1, y 2, eq_ix3 y⟩
  have ht := point_lt t
  obtain ⟨-, -, -, -, -, -, -, h0, h1, h2⟩ := block_index t
  have e : ((cfg0.win 3).blk t).view.emb (ix3 p i l) = ix3 (⟨64 * t.val + p.val, by omega⟩ : Fin 4096) i l := by
    funext a
    apply Fin.ext
    match a with
    | ⟨0, _⟩ => show win0_3.index t 0 * 64 + 1 * p.val = 64 * t.val + p.val; rw [h0]; omega
    | ⟨1, _⟩ => show win0_3.index t 1 * 128 + 1 * i.val = i.val; rw [h1]; omega
    | ⟨2, _⟩ => show win0_3.index t 2 * 128 + 1 * l.val = l.val; rw [h2]; omega
  show out0_3 (iblk m c 0 t) (iblk m c 1 t) (ix3 p i l)
    = sandwichArr (V m c main_arg0) (V m c main_arg1) (((cfg0.win 3).blk t).view.emb (ix3 p i l))
  rw [e, sandwichArr_apply]
  refine (out_sandwich (iblk m c 0 t) (iblk m c 1 t) p i l).trans ?_
  have e0 : (fun k => (iblk m c 0 t : Vec Ideal S64x128 .f32) (ix2 p k))
      = fun k => (V m c main_arg0 : S4096x128.Idx → EReal) (ix2 (⟨64 * t.val + p.val, by omega⟩ : Fin 4096) k) :=
    funext fun k => rows_of_mu m c t p k _ rfl
  have e1 : (fun j k => (iblk m c 1 t : Vec Ideal S64x128x128 .f32) (ix3 p j k))
      = fun j k => (V m c main_arg1 : S4096x128x128.Idx → EReal) (ix3 (⟨64 * t.val + p.val, by omega⟩ : Fin 4096) j k) :=
    funext fun j => funext fun k => rows_of_sigma m c t p j k _ rfl
  rw [e0, e1]

/-! ## The blocks tile the arrays -/

/-- An index of the first result array is in point `t`'s block iff each coordinate is in the block's range on its axis. -/
theorem mem_soft_block (t : Fin cfg0.N) (i : S4096x128.Idx) :
    i ∈ ((cfg0.win 2).blk t).view.set ↔ ∀ a : Fin 2, win0_2.index t a * S64x128.size a ≤ (i a).val ∧ (i a).val < win0_2.index t a * S64x128.size a + S64x128.size a := by
  show i ∈ ((View.whole main_v0_0).slice (win0_2.rect t)).set ↔ _
  rw [View.set_slice_whole, Rect.mem_set_unit]
  exact Iff.rfl

/-- The same for the second result array. -/
theorem mem_sandwich_block (t : Fin cfg0.N) (i : S4096x128x128.Idx) :
    i ∈ ((cfg0.win 3).blk t).view.set ↔ ∀ a : Fin 3, win0_3.index t a * S64x128x128.size a ≤ (i a).val ∧ (i a).val < win0_3.index t a * S64x128x128.size a + S64x128x128.size a := by
  show i ∈ ((View.whole main_v0_1).slice (win0_3.rect t)).set ↔ _
  rw [View.set_slice_whole, Rect.mem_set_unit]
  exact Iff.rfl

/-- Row `r` of the first result lies in the block of point `r / 64`. -/
theorem soft_covered (i : S4096x128.Idx) :
    ∃ t : Fin cfg0.N, (cfg0.win 2).flush t = true ∧ i ∈ ((cfg0.win 2).blk t).view.set := by
  have hi0 : (i 0).val < 4096 := (i 0).isLt
  have hi1 : (i 1).val < 128 := (i 1).isLt
  have hN : cfg0.N = 64 := N_0
  obtain ⟨t, htv⟩ : ∃ t : Fin cfg0.N, t.val = (i 0).val / 64 := ⟨⟨(i 0).val / 64, hN ▸ (by omega : (i 0).val / 64 < 64)⟩, rfl⟩
  obtain ⟨-, -, -, -, -, h0, h1, -⟩ := block_index t
  refine ⟨t, flush0_2 t, ?_⟩
  rw [mem_soft_block]
  intro a
  match a with
  | ⟨0, _⟩ => show win0_2.index t 0 * 64 ≤ (i 0).val ∧ (i 0).val < win0_2.index t 0 * 64 + 64; rw [h0, htv]; omega
  | ⟨1, _⟩ => show win0_2.index t 1 * 128 ≤ (i 1).val ∧ (i 1).val < win0_2.index t 1 * 128 + 128; rw [h1]; omega

/-- Row `r` of the second result lies in the block of point `r / 64`. -/
theorem sandwich_covered (i : S4096x128x128.Idx) :
    ∃ t : Fin cfg0.N, (cfg0.win 3).flush t = true ∧ i ∈ ((cfg0.win 3).blk t).view.set := by
  have hi0 : (i 0).val < 4096 := (i 0).isLt
  have hi1 : (i 1).val < 128 := (i 1).isLt
  have hi2 : (i 2).val < 128 := (i 2).isLt
  have hN : cfg0.N = 64 := N_0
  obtain ⟨t, htv⟩ : ∃ t : Fin cfg0.N, t.val = (i 0).val / 64 := ⟨⟨(i 0).val / 64, hN ▸ (by omega : (i 0).val / 64 < 64)⟩, rfl⟩
  obtain ⟨-, -, -, -, -, -, -, h0, h1, h2⟩ := block_index t
  refine ⟨t, flush0_3 t, ?_⟩
  rw [mem_sandwich_block]
  intro a
  match a with
  | ⟨0, _⟩ => show win0_3.index t 0 * 64 ≤ (i 0).val ∧ (i 0).val < win0_3.index t 0 * 64 + 64; rw [h0, htv]; omega
  | ⟨1, _⟩ => show win0_3.index t 1 * 128 ≤ (i 1).val ∧ (i 1).val < win0_3.index t 1 * 128 + 128; rw [h1]; omega
  | ⟨2, _⟩ => show win0_3.index t 2 * 128 ≤ (i 2).val ∧ (i 2).val < win0_3.index t 2 * 128 + 128; rw [h2]; omega

/-! ## The arrays after the run -/

/-- The first result array ends holding the softmax of every row of `μ`. -/
theorem final_soft (c : Dev nD) : (dats m 0 c).arrAt 2 cfg0.N = softArr (m ((c : Thread nD τ).loc main_arg0)) :=
  (dats m 0 c).arrAt_eq_of_cover 2 (softArr (V m c main_arg0)) (fun t _ => wrote_soft m c t) soft_covered

/-- The second result array ends holding, for every row, the sandwich of its softmax Jacobian around its `σ` matrix. -/
theorem final_sandwich (c : Dev nD) :
    (dats m 0 c).arrAt 3 cfg0.N
      = sandwichArr (m ((c : Thread nD τ).loc main_arg0)) (m ((c : Thread nD τ).loc main_arg1)) :=
  (dats m 0 c).arrAt_eq_of_cover 3 (sandwichArr (V m c main_arg0) (V m c main_arg1)) (fun t _ => wrote_sandwich m c t)
    sandwich_covered

/-- The kernel's run, read: both result arrays at their whole-array functions of the arguments, the arguments unchanged. -/
theorem run : θ_run defs (onTc (τ := τ) (main (F := Ideal))) ⟨m, fun _ => 0, ρ⟩ fun r => ∀ c : Dev nD,
      r.2.mem ((c : Thread nD τ).loc main_v0_0) = softArr (m ((c : Thread nD τ).loc main_arg0))
      ∧ r.2.mem ((c : Thread nD τ).loc main_v0_1)
          = sandwichArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_soft m c), (h c).2.1.trans (final_sandwich m c),
      (h c).2.2.1, (h c).2.2.2⟩)
    (run_blocks m ρ)

end Cert.KernelArrays

end
-- ==== Proof.RefRows.lean ====
/-
  The reference, stage by stage, read at an index and set beside the row mathematics.

  The reference takes each row's maximum with a host reduction from −∞ (and then once more the maximum with −∞, which
  changes nothing), subtracts it, exponentiates, sums each row from zero and divides: at `(b, c)` the softmax of row `b`
  at `c`.  Its identity matrix compares a row counter (plus zero) with a column counter and reads the bit as an unsigned
  number: Kronecker's delta.  Its Jacobian is the same expression as the kernel's.  Its two contractions are
  `U(b, k, i) = Σ_j σ(b, j, k) · J(b, i, j)` and `Y(b, i, l) = Σ_k U(b, k, i) · J(b, l, k)`: the sandwich with the inner
  factors in the other order.
-/
import proofs.«144107_j26499948216844_1_alg».proof.Proof.Gen.ReferenceIdeal.Read
import proofs.«144107_j26499948216844_1_alg».proof.Proof.WholeArrays
import Idealize.ShloMosaic.Lib.StableHlo.Predicate

noncomputable section

namespace Cert.RefRows

open Idealize.ShloMosaic Idealize.ShloMosaic.ValueIdx Cert.ReferenceIdeal Cert.ReferenceIdeal.Gen Cert.ReferenceIdeal.Read Cert.RowMath

/-- Row `b` with column `k` put back into the reduced index is `(b, k)`. -/
theorem lift_row (h : S4096x128.Reduces [1] S4096) (b : Fin 4096) (k : Fin 128) : h.lift (ix1 b) k = ix2 b k := by
  funext c
  match c with
  | ⟨0, _⟩ => rfl
  | ⟨1, _⟩ => rfl

/-- The host's maximum over axis 1, from −∞, at row `b`: the top of that row. -/
theorem top_apply (mu : (⟨S4096x128, .f32⟩ : BufTy).Contents (Elt Ideal)) (b : Fin 4096) :
    val_main_v0 (F := Ideal) mu (ix1 b) = rowTop (fun k => mu (ix2 b k)) := by
  have h : S4096x128.Reduces [1] S4096 := by decide
  unfold val_main_v0
  rw [Host.reduce_eq_fold_single (FloatOps.maximumf (F := Ideal) (φ := .f32)) (mu : S4096x128.Idx → Ideal .f32)
    (val_main_cst (F := Ideal)) reducesTo_S4096x128_S4096_d1 h h_S_]
  unfold rowTop
  exact congrArg (fun f => Finset.fold max negInf f (Finset.univ : Finset (Fin 128)))
    (funext fun k => congrArg mu (lift_row h b k))

/-- Each entry less its row's top, exponentiated, at `(b, c)`. -/
theorem expBelowTop_apply (mu : (⟨S4096x128, .f32⟩ : BufTy).Contents (Elt Ideal)) (b : Fin 4096) (c : Fin 128) :
    val_main_v6 (F := Ideal) mu (ix2 b c) = Ideal.exp (mu (ix2 b c) - rowTop (fun k => mu (ix2 b k))) := by
  rw [val_main_v6_apply, val_main_v5_apply, val_main_v4_apply, val_main_v3_apply, val_main_v2_apply, val_main_v1_apply,
    val_main_cst_0_apply]
  have e : idx_main_v3 (idx_main_v4 (ix2 b c)) = ix1 b := funext fun a => Fin.ext (by match a with | ⟨0, _⟩ => rfl)
  rw [e, top_apply]
  show Ideal.exp (mu (ix2 b c) - max negInf (rowTop _)) = _
  rw [max_negInf_rowTop]

/-- The reference's first result at `(b, c)`: the softmax of row `b` at `c`. -/
theorem soft_apply (mu : (⟨S4096x128, .f32⟩ : BufTy).Contents (Elt Ideal)) (b : Fin 4096) (c : Fin 128) :
    val_main_v10 (F := Ideal) mu (ix2 b c) = softRow (fun k => mu (ix2 b k)) c := by
  rw [val_main_v10_apply, val_main_v9_apply, val_main_v8_apply, val_main_v7_apply, val_main_cst_1_apply, expBelowTop_apply]
  unfold softRow
  show Ideal.div _ (Ideal.ofBits .f32 0x00000000#32 + _) = _
  rw [Ideal.ofBits_zero_f32, zero_add]
  refine congrArg _ (Finset.sum_congr rfl fun k _ => ?_)
  have e : idx_main_v7 (idx_main_v8 (idx_main_v9 (ix2 b c))) k = ix2 b k :=
    funext fun a => Fin.ext (by match a with | ⟨0, _⟩ => rfl | ⟨1, _⟩ => rfl)
  rw [e, expBelowTop_apply]

/-- The reference's identity matrix is Kronecker's delta. -/
theorem eye_apply (i j : Fin 128) : val_main_v16 (F := Ideal) (ix2 i j) = eye i j := by
  rw [val_main_v16_apply, val_main_v15_apply, val_main_v14_apply, val_main_v13_apply, val_main_c_apply, val_main_v11_apply,
    val_main_v12_apply]
  show (((IntOp.cmpi .eq (BitVec.ofNat 32 i.val + 0#32) (BitVec.ofNat 32 j.val)).toNat : ℝ) : EReal) = eye i j
  rw [BitVec.add_zero]
  unfold eye
  by_cases h : i = j
  · rw [if_pos h, StableHlo.Predicate.cmpi_eq_iff.mpr ((word_eq_iff i j).mpr h)]
    norm_num
  · rw [if_neg h, eq_zero_of_ne_one (fun e => h ((word_eq_iff i j).mp (StableHlo.Predicate.cmpi_eq_iff.mp e)))]
    norm_num

/-- The reference's Jacobian at `(b, i, j)`: the softmax Jacobian of row `b` at `(i, j)`. -/
theorem jac_apply (mu : (⟨S4096x128, .f32⟩ : BufTy).Contents (Elt Ideal)) (b : Fin 4096) (i j : Fin 128) :
    val_main_v27 (F := Ideal) mu (ix3 b i j) = jac (softRow (fun k => mu (ix2 b k))) i j := by
  rw [val_main_v27_apply, val_main_v21_apply, val_main_v26_apply, val_main_v19_apply, val_main_v17_apply, val_main_v20_apply,
    val_main_v18_apply, val_main_v24_apply, val_main_v22_apply, val_main_v25_apply, val_main_v23_apply]
  have e1 : idx_main_v17 (idx_main_v19 (ix3 b i j)) = ix2 b i :=
    funext fun a => Fin.ext (by match a with | ⟨0, _⟩ => rfl | ⟨1, _⟩ => rfl)
  have e2 : idx_main_v18 (idx_main_v20 (ix3 b i j)) = ix2 i j :=
    funext fun a => Fin.ext (by match a with | ⟨0, _⟩ => rfl | ⟨1, _⟩ => rfl)
  have e3 : idx_main_v22 (idx_main_v24 (ix3 b i j)) = ix2 b i :=
    funext fun a => Fin.ext (by match a with | ⟨0, _⟩ => rfl | ⟨1, _⟩ => rfl)
  have e4 : idx_main_v23 (idx_main_v25 (ix3 b i j)) = ix2 b j :=
    funext fun a => Fin.ext (by match a with | ⟨0, _⟩ => rfl | ⟨1, _⟩ => rfl)
  rw [e1, e2, e3, e4, soft_apply, soft_apply, eye_apply]
  rfl

/-- The reference's second result at `(b, i, l)`: the sandwich of row `b`'s Jacobian around `σ(b, ·, ·)`. -/
theorem sandwich_apply (mu : (⟨S4096x128, .f32⟩ : BufTy).Contents (Elt Ideal))
    (sigma : (⟨S4096x128x128, .f32⟩ : BufTy).Contents (Elt Ideal)) (b : Fin 4096) (i l : Fin 128) :
    val_main_v29 (F := Ideal) mu sigma (ix3 b i l)
      = sandwich (softRow (fun k => mu (ix2 b k))) (fun j k => sigma (ix3 b j k)) i l := by
  rw [val_main_v29_apply, ← sandwich_swap]
  refine Finset.sum_congr rfl fun k _ => ?_
  have el : lidx_main_v29 (ix3 b i l) k = ix3 b k i :=
    funext fun a => Fin.ext (by match a with | ⟨0, _⟩ => rfl | ⟨1, _⟩ => rfl | ⟨2, _⟩ => rfl)
  have er : ridx_main_v29 (ix3 b i l) k = ix3 b l k :=
    funext fun a => Fin.ext (by match a with | ⟨0, _⟩ => rfl | ⟨1, _⟩ => rfl | ⟨2, _⟩ => rfl)
  rw [el, er, jac_apply, val_main_v28_apply]
  refine congrArg (· * _) (Finset.sum_congr rfl fun j _ => ?_)
  have el' : lidx_main_v28 (ix3 b k i) j = ix3 b j k :=
    funext fun a => Fin.ext (by match a with | ⟨0, _⟩ => rfl | ⟨1, _⟩ => rfl | ⟨2, _⟩ => rfl)
  have er' : ridx_main_v28 (ix3 b k i) j = ix3 b i j :=
    funext fun a => Fin.ext (by match a with | ⟨0, _⟩ => rfl | ⟨1, _⟩ => rfl | ⟨2, _⟩ => rfl)
  rw [el', er', jac_apply]

/-! ## The two results as whole arrays -/

/-- The reference's first result is the softmax of every row of `μ`. -/
theorem soft_eq (mu : (⟨S4096x128, .f32⟩ : BufTy).Contents (Elt Ideal)) : val_main_v10 (F := Ideal) mu = softArr mu := by
  funext y
  obtain ⟨b, c, rfl⟩ : ∃ (b : Fin 4096) (c : Fin 128), y = ix2 b c := ⟨y 0, y 1, eq_ix2 y⟩
  exact soft_apply mu b c

/-- The reference's second result is, for every row, the sandwich of its softmax Jacobian around its `σ` matrix. -/
theorem sandwich_eq (mu : (⟨S4096x128, .f32⟩ : BufTy).Contents (Elt Ideal))
    (sigma : (⟨S4096x128x128, .f32⟩ : BufTy).Contents (Elt Ideal)) :
    val_main_v29 (F := Ideal) mu sigma = sandwichArr mu sigma := by
  funext y
  obtain ⟨b, i, l, rfl⟩ : ∃ (b : Fin 4096) (i l : Fin 128), y = ix3 b i l := ⟨y 0, y 1, y 2, eq_ix3 y⟩
  exact sandwich_apply mu sigma b i l

end Cert.RefRows

end
-- ==== Proof.lean ====
/- The kernel computes, for each of 4096 batch rows, the softmax `p` of a row of `μ` and the matrix `J σ Jᵀ`, where
   `J = diag(p) − p pᵀ` is the softmax Jacobian and `σ` the row's 128 × 128 matrix; the reference computes the same two
   things with jnp.  On the extended reals the two programs are one function of their arguments, index by index:

   * both take the row's maximum from −∞, subtract it, exponentiate, sum and divide (the reference's extra maximum with −∞
     changes nothing); a change of float format is the identity, so the kernel's bf16 casts disappear;
   * both build the identity matrix by comparing a row counter with a column counter, and the Jacobian by the same
     expression;
   * the kernel forms `(J σ) Jᵀ` as two batched products, `Σ_k (Σ_j J_ij σ_jk) J_lk`; the reference's three-operand einsum
     lowers to `Σ_k (Σ_j σ_jk J_ij) J_lk` through a transposed intermediate: the same grouping, the inner factors swapped.
     Only commutativity of the product is used, so the precondition (finite inputs) is never opened.

   Proof/RowMath.lean states the mathematics of one row; Proof/WholeArrays.lean the two results as whole arrays;
   Proof/KernelSoftmax.lean and Proof/KernelSandwich.lean read the kernel body's two stored values at an index of a block;
   Proof/KernelArrays.lean carries the blocks (64 rows per grid point) to the arrays after the run; Proof/RefRows.lean reads
   the reference stage by stage.  The three frames are the generated ones (the reference's is its generated run with the
   results dropped); the idealization rewrote nothing, so `preserves` is trivial. -/
import proofs.«144107_j26499948216844_1_alg».proof.Defs
import proofs.«144107_j26499948216844_1_alg».proof.Proof.Gen.Kernel
import proofs.«144107_j26499948216844_1_alg».proof.Proof.Gen.Kernel.Skeleton
import proofs.«144107_j26499948216844_1_alg».proof.Proof.Gen.Kernel.Launch
import proofs.«144107_j26499948216844_1_alg».proof.Proof.Gen.Kernel.Points
import proofs.«144107_j26499948216844_1_alg».proof.Proof.Gen.Kernel.Frame
import proofs.«144107_j26499948216844_1_alg».proof.Proof.Gen.KernelIdeal
import proofs.«144107_j26499948216844_1_alg».proof.Proof.Gen.KernelIdeal.Skeleton
import proofs.«144107_j26499948216844_1_alg».proof.Proof.Gen.KernelIdeal.Launch
import proofs.«144107_j26499948216844_1_alg».proof.Proof.Gen.KernelIdeal.Points
import proofs.«144107_j26499948216844_1_alg».proof.Proof.Gen.KernelIdeal.Frame
import proofs.«144107_j26499948216844_1_alg».proof.Proof.Gen.ReferenceIdeal
import proofs.«144107_j26499948216844_1_alg».proof.Proof.Gen.Pre_finite_inputs
import proofs.«144107_j26499948216844_1_alg».proof.Proof.Gen.KernelIdeal.Value
import proofs.«144107_j26499948216844_1_alg».proof.Proof.Gen.ReferenceIdeal.Run
import proofs.«144107_j26499948216844_1_alg».proof.Proof.Gen.ReferenceIdeal.Read
import proofs.«144107_j26499948216844_1_alg».proof.Proof.KernelArrays
import proofs.«144107_j26499948216844_1_alg».proof.Proof.RefRows
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run with the two results dropped. -/
theorem frame_reference : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- The idealization rewrote no operation. -/
theorem preserves : Cert.preserves_Kernel_KernelIdeal := trivial

/-- From memories that agree on `μ` and `σ` both programs end with the softmax of every row in the first result and the
    sandwich of every row's Jacobian around its matrix in the second. -/
theorem algebraic : Cert.algebraic_KernelIdeal_ReferenceIdeal := by
  intro m ρ m' ρ' _ hagree
  refine ⟨_, _, Cert.KernelArrays.run m ρ, ?_⟩
  refine (θ_run Cert.ReferenceIdeal.defs _ _).mono (fun _ h c => ?_) (Cert.ReferenceIdeal.Value.run (F := Ideal) m' ρ')
  obtain ⟨h0, h1, ha0, ha1⟩ := h c
  refine ⟨h0.trans ?_, h1.trans ?_, ha0, ha1⟩
  · rw [Cert.ReferenceIdeal.Read.val_main_v10_eq, Cert.RefRows.soft_eq, (hagree c).1]
  · rw [Cert.ReferenceIdeal.Read.val_main_v29_eq, Cert.RefRows.sandwich_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
